-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x1x512x512 : Shape := ⟨4, ![32, 1, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : IVec S32x1x512x512 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x1x512x512 : Shape := ⟨4, ![32, 1, 512, 512]⟩
abbrev S1x3x512x512 : Shape := ⟨4, ![1, 3, 512, 512]⟩
abbrev S1x1x512x512 : Shape := ⟨4, ![1, 1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .i32⟩
  | .hbm, ⟨2, _⟩ => ⟨S32x3x512x512, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x512x512, .i32⟩
  | .local _ .vmem, ⟨3, _⟩ => ⟨S1x1x512x512, .i32⟩
  | .local _ .vmem, ⟨4, _⟩ => ⟨S1x3x512x512, .f32⟩
  | .local _ .vmem, ⟨5, _⟩ => ⟨S1x3x512x512, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x3x512x512_S1x3x512x512_0_0_0_0 : ∀ a, (![0, 0, 0, 0] : Fin 4 → Nat) a + S1x3x512x512.size a ≤ S1x3x512x512.size a
  h_S1x3x512x512 : 0 < S1x3x512x512.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S1x1x512x512 : S1x1x512x512.ShapeCasts S1x1x512x512
  broadcasts_S1x1x512x512_S1x3x512x512 : S1x1x512x512.Broadcasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S32x3x512x512.size a
  hwx0_0 : ∀ i : grid0.Coords, EltTy.bits .f32 = 32 ∨ (Rect.block (s := S32x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x1x512x512.size a
  hwx0_1 : ∀ i : grid0.Coords, EltTy.bits .i32 = 32 ∨ (Rect.block (s := S32x1x512x512) S1x1x512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S32x3x512x512.size a
  hwx0_2 : ∀ i : grid0.Coords, EltTy.bits .f32 = 32 ∨ (Rect.block (s := S32x3x512x512) S1x3x512x512.size (cc0_transform_2 i) (hinb0_2 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x1x512x512 : Shape := ⟨4, ![32, 1, 512, 512]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .i32⟩
  | .hbm, ⟨2, _⟩ => ⟨S_, .i32⟩
  | .hbm, ⟨3, _⟩ => ⟨S32x1x512x512, .i32⟩
  | .hbm, ⟨4, _⟩ => ⟨S32x1x512x512, .i1⟩
  | .hbm, ⟨5, _⟩ => ⟨S_, .i32⟩
  | .hbm, ⟨6, _⟩ => ⟨S32x1x512x512, .i32⟩
  | .hbm, ⟨7, _⟩ => ⟨S32x1x512x512, .i1⟩
  | .hbm, ⟨8, _⟩ => ⟨S_, .f32⟩
  | .hbm, ⟨9, _⟩ => ⟨S32x3x512x512, .i1⟩
  | .hbm, ⟨10, _⟩ => ⟨S32x3x512x512, .f32⟩
  | .hbm, ⟨11, _⟩ => ⟨S32x3x512x512, .f32⟩
  | .hbm, ⟨12, _⟩ => ⟨S_, .f32⟩
  | .hbm, ⟨13, _⟩ => ⟨S32x3x512x512, .i1⟩
  | .hbm, ⟨14, _⟩ => ⟨S32x3x512x512, .f32⟩
  | .hbm, ⟨15, _⟩ => ⟨S32x3x512x512, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_call1_v0 : Ref sig .tc := ⟨.hbm, 13, rfl⟩
abbrev main_call1_v1 : Ref sig .tc := ⟨.hbm, 14, rfl⟩
abbrev main_v5 : Ref sig .tc := ⟨.hbm, 15, rfl⟩

abbrev nD : Nat := 1
abbrev τ : Topo := Topo.v7x

variable {F : FTy → Type} [FloatOps F]

class Facts₀ : Prop where
  bcast_S_S32x1x512x512 : S_.BroadcastsInDim S32x1x512x512 (![] : Fin 0 → Fin S32x1x512x512.rank)
  bcast_S32x1x512x512_S32x3x512x512_0_1_2_3 : S32x1x512x512.BroadcastsInDim S32x3x512x512 (![0, 1, 2, 3] : Fin 4 → Fin S32x3x512x512.rank)
  bcast_S_S32x3x512x512 : S_.BroadcastsInDim S32x3x512x512 (![] : Fin 0 → Fin S32x3x512x512.rank)

variable [Facts₀]

class Facts : Prop extends Facts₀ where

variable [Facts]
-- ==== Proof.Noise.lean ====
/-
  Salt-and-pepper noise as ONE function of the two argument arrays, index by index.

  The image is f32[32, 3, 512, 512] (batch, channel, row, column) and the mask i32[32, 1, 512, 512]: one
  mask word per pixel position, shared by the three channels. The noised image at (b, ch, r, col) is decided
  by the mask word at (b, 0, r, col): the word 0 blackens the pixel (the float 0.0), the word 1 whitens it
  (the float 1.0), and every other word keeps the image's own value. No arithmetic is done on the floats, so
  the function is the same at every float instance and never asks the inputs to be finite.
-/
import Idealize.ShloMosaic.PureOps.Ideal
import Idealize.ShloMosaic.Lib.ValueIdx

noncomputable section

namespace Cert.Noise

open Idealize.ShloMosaic Idealize.ShloMosaic.ValueIdx

variable {F : FTy → Type} [FloatOps F]

/-- The shape of the image and of the result. -/
abbrev ImgShape : Shape := ⟨4, ![32, 3, 512, 512]⟩
/-- The shape of the mask: the image's, with a single channel. -/
abbrev MaskShape : Shape := ⟨4, ![32, 1, 512, 512]⟩

/-- The mask position that governs image position `i`: the same batch, row and column, the mask's one channel. -/
abbrev maskIdx (i : ImgShape.Idx) : MaskShape.Idx :=
  ix4 (n0 := 32) (n1 := 1) (n2 := 512) (n3 := 512) (i 0) 0 (i 2) (i 3)

/-- One pixel: black where the mask word is 0, white where it is 1, the image's value otherwise. -/
def pixel (w : BitVec 32) (x : F .f32) : F .f32 :=
  Scalar.select (IntOp.cmpi .eq w 0#32) (FloatOps.ofBits .f32 0x00000000#32)
    (Scalar.select (IntOp.cmpi .eq w 1#32) (FloatOps.ofBits .f32 0x3F800000#32) x)

/-- The noised image: each pixel under the mask word of its position. -/
def noised (img : ImgShape.Idx → F .f32) (msk : MaskShape.Idx → BitVec 32) : ImgShape.Idx → F .f32 :=
  fun i => pixel (msk (maskIdx i)) (img i)

/-- The noised image read at an index. -/
theorem noised_apply (img : ImgShape.Idx → F .f32) (msk : MaskShape.Idx → BitVec 32) (i : ImgShape.Idx) :
    noised img msk i = pixel (msk (maskIdx i)) (img i) := rfl

end Cert.Noise

end
-- ==== Proof.KernelValue.lean ====
/-
  The kernel's result array is the noised image.

  The grid has 32 points, one per batch entry. Point `t` stages block `t` of the image ([1, 3, 512, 512]:
  all channels, rows and columns of batch entry `t`), block `t` of the mask ([1, 1, 512, 512]) and writes back
  block `t` of the result. Inside a block the body broadcasts the mask block over the three channels, compares
  it with 0 and with 1, and selects twice; so the element it stores at block position (0, ch, r, col) is the
  pixel rule applied to the mask block's word at (0, 0, r, col) and the image block's value at (0, ch, r, col).
  Block position (0, ch, r, col) of point `t` is array position (t, ch, r, col) in the image and the result and
  (t, 0, r, col) in the mask, which is the mask position that governs that pixel: each point writes back the
  block of ONE whole-array function, `Cert.Noise.noised` of the two argument arrays. The 32 blocks tile the
  result (position `i` lies in the block of the point numbered by `i`'s batch coordinate), so after the run
  the result array is that function everywhere.
-/
import proofs.«173829_j10471130267771_1_alg».proof.Proof.Gen.KernelIdeal.Value
import proofs.«173829_j10471130267771_1_alg».proof.Proof.Noise

noncomputable section

namespace Cert.KernelIdeal.NoiseValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One block -/

/-- The offsets of the body's loads and of its store, all zero. -/
theorem offsets_zero : (![0, 0, 0, 0] : Fin 4 → Nat) = fun _ => 0 := funext fun a => by fin_cases a <;> rfl

/-- A block position of the image block has batch coordinate 0, so re-reading it with a literal 0 there
    changes nothing. -/
theorem img_pos (y : S1x3x512x512.Idx) : Value.ix2_2 y = y :=
  funext fun a => Fin.ext (by
    match a with
    | ⟨0, _⟩ => show 0 = (y 0).val; have h : (y 0).val < 1 := (y 0).isLt; omega
    | ⟨1, _⟩ => rfl
    | ⟨2, _⟩ => rfl
    | ⟨3, _⟩ => rfl)

/-- WHAT THE BODY LEAVES in the output block, read at a block position: the pixel rule on the mask block's
    word under that position (channel 0) and the image block's value at it. Stated over any two blocks. -/
theorem out_block_apply (x0 : Vec F S1x3x512x512 .f32) (x1 : Vec F S1x1x512x512 .i32) (y : S1x3x512x512.Idx) :
    out0_2 x0 x1 y = Cert.Noise.pixel (x1 (Value.ix2_0 y)) (x0 y) := by
  unfold out0_2
  simp only [View.ld_unit_zero (S := S1x3x512x512) offsets_zero, View.ld_unit_zero (S := S1x1x512x512) offsets_zero]
  refine (Value.canon2_eq x1 x0 y).trans ?_
  show Cert.Noise.pixel (x1 (Value.ix2_0 y)) (x0 (Value.ix2_2 y)) = _
  rw [img_pos]

/-! ## The index maps -/

/-- The three printed index maps, decided over the 32 grid points: every window's block index is the point's
    number on the batch axis and 0 on the other three. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- Every batch entry is some point's. -/
theorem idx_onto : ∀ q : Fin 32, ∃ t : Fin cfg0.N, t.val = q.val :=
  (by decide +kernel : ∀ q : Fin 32, ∃ t : Fin grid0.N, t.val = q.val)

/-! ## What a point writes back -/

/-- WHAT POINT `t` WRITES BACK is block `t` of the noised image of the argument arrays as the region finds them. -/
theorem flushed_eq (c : Dev nD) (t : Fin cfg0.N) :
    (dats m 0 c).flushed 2 t
      = ((cfg0.win 2).blk t).view.read (Elt F) (Cert.Noise.noised (V m c main_arg0) (V m c main_arg1)) := by
  rw [Value.flushed2]
  obtain ⟨a0, a1, a2, a3, b0, b1, b2, b3, c0, c1, c2, c3⟩ := idx_facts t
  funext j
  have hj0 : (j 0).val < 1 := (j 0).isLt
  show out0_2 (iblk m c 0 t) (iblk m c 1 t) j
    = Cert.Noise.noised (V m c main_arg0) (V m c main_arg1) (((cfg0.win 2).blk t).view.emb j)
  refine (out_block_apply (iblk m c 0 t) (iblk m c 1 t) j).trans ?_
  show Cert.Noise.pixel (V m c main_arg1 (((cfg0.win 1).blk t).view.emb (Value.ix2_0 j))) (V m c main_arg0 (((cfg0.win 0).blk t).view.emb j))
    = Cert.Noise.pixel (V m c main_arg1 (Cert.Noise.maskIdx (((cfg0.win 2).blk t).view.emb j))) (V m c main_arg0 (((cfg0.win 2).blk t).view.emb j))
  have himg : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 3 + 1 * (j 1).val = win0_2.index t (1 : Fin 4) * 3 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  have hmsk : ((cfg0.win 1).blk t).view.emb (Value.ix2_0 j) = Cert.Noise.maskIdx (((cfg0.win 2).blk t).view.emb j) := by
    funext a; apply Fin.ext
    match a with
    | ⟨0, _⟩ => show win0_1.index t (0 : Fin 4) * 1 + 1 * 0 = win0_2.index t (0 : Fin 4) * 1 + 1 * (j 0).val; omega
    | ⟨1, _⟩ => show win0_1.index t (1 : Fin 4) * 1 + 1 * 0 = 0; omega
    | ⟨2, _⟩ => show win0_1.index t (2 : Fin 4) * 512 + 1 * (j 2).val = win0_2.index t (2 : Fin 4) * 512 + 1 * (j 2).val; omega
    | ⟨3, _⟩ => show win0_1.index t (3 : Fin 4) * 512 + 1 * (j 3).val = win0_2.index t (3 : Fin 4) * 512 + 1 * (j 3).val; omega
  rw [himg, hmsk]

/-! ## The blocks tile the result -/

/-- A position of the result is in point `t`'s block iff each coordinate is in the block's range on its axis. -/
theorem mem_blk (t : Fin cfg0.N) (i : S32x3x512x512.Idx) :
    i ∈ ((cfg0.win 2).blk t).view.set ↔ ∀ a : Fin 4, win0_2.index t a * S1x3x512x512.size a ≤ (i a).val ∧ (i a).val < win0_2.index t a * S1x3x512x512.size a + S1x3x512x512.size a := by
  show i ∈ ((View.whole main_v0).slice (win0_2.rect t)).set ↔ _
  rw [View.set_slice_whole, Rect.mem_set_unit]
  exact Iff.rfl

/-- Every position of the result is in the block of the point numbered by its batch coordinate. -/
theorem covered (i : S32x3x512x512.Idx) :
    ∃ t : Fin cfg0.N, (cfg0.win 2).flush t = true ∧ i ∈ ((cfg0.win 2).blk t).view.set := by
  have hi0 : (i 0).val < 32 := (i 0).isLt
  have hi1 : (i 1).val < 3 := (i 1).isLt
  have hi2 : (i 2).val < 512 := (i 2).isLt
  have hi3 : (i 3).val < 512 := (i 3).isLt
  obtain ⟨t, ht⟩ := idx_onto ⟨(i 0).val, hi0⟩
  have ht' : t.val = (i 0).val := ht
  obtain ⟨a0, a1, a2, a3, b0, b1, b2, b3, c0, c1, c2, c3⟩ := idx_facts t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 3 ≤ (i 1).val ∧ (i 1).val < win0_2.index t (1 : Fin 4) * 3 + 3; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-! ## The whole array, and the run -/

/-- THE RESULT ARRAY after the run is the noised image of the two argument arrays. -/
theorem final (c : Dev nD) :
    (dats m 0 c).arrAt 2 cfg0.N
      = Cert.Noise.noised (m ((c : Thread nD τ).loc main_arg0)) (m ((c : Thread nD τ).loc main_arg1)) :=
  (dats m 0 c).arrAt_eq_of_cover 2 (Cert.Noise.noised (V m c main_arg0) (V m c main_arg1))
    (fun t _ => flushed_eq m c t) covered

/-- Every weakly fair execution of the kernel's program ends with the result array at the noised image of the
    arguments, the arguments unchanged. -/
theorem run : θ_run defs (onTc (τ := τ) (main (F := F))) ⟨m, fun _ => 0, ρ⟩ fun r => ∀ c : Dev nD,
      r.2.mem ((c : Thread nD τ).loc main_v0)
        = Cert.Noise.noised (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.NoiseValue

end
-- ==== Proof.RefValue.lean ====
/-
  The reference computes the noised image.

  The reference compares the whole mask with 0 and with 1 first (two arrays of bits, one channel each),
  broadcasts each bit array over the three channels, and selects twice: the inner select puts 1.0 where the
  mask is 1 and the image elsewhere, the outer one puts 0.0 where the mask is 0. Read at an index
  (b, ch, r, col), each broadcast reads its bit array at (b, 0, r, col), and each bit there is the comparison
  of the mask word at that position: exactly the pixel rule of `Cert.Noise.noised`.
-/
import proofs.«173829_j10471130267771_1_alg».proof.Proof.Gen.ReferenceIdeal.Read
import proofs.«173829_j10471130267771_1_alg».proof.Proof.Noise

noncomputable section

namespace Cert.ReferenceIdeal.RefValue

open Cert.ReferenceIdeal Cert.ReferenceIdeal.Read Idealize.ShloMosaic Idealize.ShloMosaic.ValueIdx

variable {F : FTy → Type} [FloatOps F]

/-- The position at which a bit array broadcast over the channels is read is the governing mask position
    (both broadcasts of the reference read through the same index map). -/
theorem bcast_idx0 (i : S32x3x512x512.Idx) : idx_main_call0_v0 i = Cert.Noise.maskIdx i :=
  funext fun a => Fin.ext (by match a with | ⟨0, _⟩ => rfl | ⟨1, _⟩ => rfl | ⟨2, _⟩ => rfl | ⟨3, _⟩ => rfl)

theorem bcast_idx1 (i : S32x3x512x512.Idx) : idx_main_call1_v0 i = Cert.Noise.maskIdx i :=
  funext fun a => Fin.ext (by match a with | ⟨0, _⟩ => rfl | ⟨1, _⟩ => rfl | ⟨2, _⟩ => rfl | ⟨3, _⟩ => rfl)

/-- The reference's result, stage by stage down to the two argument arrays, is the noised image. -/
theorem result_eq (img : (⟨S32x3x512x512, .f32⟩ : BufTy).Contents (Elt F)) (msk : (⟨S32x1x512x512, .i32⟩ : BufTy).Contents (Elt F)) :
    val_main_v5 (F := F) img msk = Cert.Noise.noised img msk := by
  funext i
  rw [val_main_v5_apply, val_main_call1_v0_apply, val_main_v1_apply, val_main_v0_apply, val_main_c_apply,
    val_main_call1_v1_apply, val_main_cst_1_apply, val_main_v4_apply, val_main_call0_v0_apply, val_main_v3_apply,
    val_main_v2_apply, val_main_c_0_apply, val_main_call0_v1_apply, val_main_cst_apply, bcast_idx0, bcast_idx1]
  rfl

end Cert.ReferenceIdeal.RefValue

end
-- ==== Proof.lean ====
/-
  Salt-and-pepper noise on an image batch: a Pallas kernel against its jnp reference, equal over the extended reals.

  The image is f32[32, 3, 512, 512], the mask i32[32, 1, 512, 512]. Both programs compute, at every position
  (b, ch, r, col), the same rule of the mask word w at (b, 0, r, col): the float 0.0 if w = 0, the float 1.0 if
  w = 1, the image's own value otherwise (`Cert.Noise.noised`, Proof/Noise.lean). They differ only in the order
  of their layout steps. The kernel walks the batch axis, one grid point per batch entry; at each point it
  broadcasts that entry's mask block over the three channels and then compares and selects. The reference
  compares the whole mask with 0 and with 1 first and broadcasts the two bit arrays over the channels afterwards.
  A comparison of words commutes with a broadcast, and the two float literals are the same words on both sides,
  so no law of arithmetic is used and the finiteness of the image is never needed.

  * Proof/Noise.lean: the rule as one function of the two arrays.
  * Proof/KernelValue.lean: each grid point writes back its block of that function; the 32 blocks tile the
    result, so the kernel's result array is the function of the arguments.
  * Proof/RefValue.lean: the reference's result, read stage by stage at an index, is the same function.

  The three programs' frames are the generated frame runs (the reference's is its run with the result dropped).
  Nothing in the kernel was rewritten when it was idealized, so the idealized kernel is the kernel's own text read
  over the extended reals and there is nothing to preserve. The value claim sets the two runs side by side at the one function.
-/
import proofs.«173829_j10471130267771_1_alg».proof.Defs
import proofs.«173829_j10471130267771_1_alg».proof.Proof.Gen.Kernel
import proofs.«173829_j10471130267771_1_alg».proof.Proof.Gen.Kernel.Skeleton
import proofs.«173829_j10471130267771_1_alg».proof.Proof.Gen.Kernel.Launch
import proofs.«173829_j10471130267771_1_alg».proof.Proof.Gen.Kernel.Points
import proofs.«173829_j10471130267771_1_alg».proof.Proof.Gen.Kernel.Frame
import proofs.«173829_j10471130267771_1_alg».proof.Proof.Gen.KernelIdeal
import proofs.«173829_j10471130267771_1_alg».proof.Proof.Gen.KernelIdeal.Skeleton
import proofs.«173829_j10471130267771_1_alg».proof.Proof.Gen.KernelIdeal.Launch
import proofs.«173829_j10471130267771_1_alg».proof.Proof.Gen.KernelIdeal.Points
import proofs.«173829_j10471130267771_1_alg».proof.Proof.Gen.KernelIdeal.Frame
import proofs.«173829_j10471130267771_1_alg».proof.Proof.Gen.ReferenceIdeal
import proofs.«173829_j10471130267771_1_alg».proof.Proof.Gen.KernelIdeal.Value
import proofs.«173829_j10471130267771_1_alg».proof.Proof.Gen.ReferenceIdeal.Run
import proofs.«173829_j10471130267771_1_alg».proof.Proof.Gen.ReferenceIdeal.Read
import proofs.«173829_j10471130267771_1_alg».proof.Proof.Gen.Pre_finite_inputs
import proofs.«173829_j10471130267771_1_alg».proof.Proof.KernelValue
import proofs.«173829_j10471130267771_1_alg».proof.Proof.RefValue
import Idealize.ShloMosaic.Adequacy
import Idealize.ShloMosaic.Init

noncomputable section

namespace Cert.Proof

open Idealize.ShloMosaic Idealize.SL.Sem

/-- The kernel as printed runs to the end and leaves the image and the mask as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs to the end with its arguments unchanged: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the image and the mask, the kernel's result array and the reference's both end
    at the noised image of those two arrays: the kernel's block by block over the batch axis, the reference's
    stage by stage. -/
theorem algebraic : Cert.algebraic_KernelIdeal_ReferenceIdeal := by
  intro m ρ m' ρ' _ hagree
  refine ⟨_, Cert.KernelIdeal.NoiseValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
